-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x8 : Shape := ⟨3, ![32, 1024, 8]⟩
abbrev S_ : Shape := ⟨0, ![]⟩

class Facts : Prop where
  bcast_S_S32x1024x8 : S_.BroadcastsInDim S32x1024x8 (![] : Fin 0 → Fin S32x1024x8.rank)
  reducesTo_S32x1024x8_S_d0_1_2 : S32x1024x8.ReducesTo [0, 1, 2] S_
  h_S_ : 0 < S_.numel

variable [Facts]

def fn {F : FTy → Type} [FloatOps F] (main_arg0 : FVec F S32x1024x8 .f32) : IVec S_ 1 :=
  let main_v0 : FVec F S32x1024x8 .f32 := Host.absf main_arg0
  let main_cst : FVec F S_ .f32 := constant S_ .f32 0x7F800000#32
  let main_v1 : FVec F S32x1024x8 .f32 := broadcastInDim S32x1024x8 ![] bcast_S_S32x1024x8 main_cst
  let main_v2 : IVec S32x1024x8 1 := cmpf .olt main_v0 main_v1
  let main_c : IVec S_ 1 := constantI S_ 1 1#1
  let main_v3 : IVec S_ 1 := (fun x v => Host.reduce IntOp.andi x v reducesTo_S32x1024x8_S_d0_1_2 h_S_) main_v2 main_c
  main_v3
-- ==== Kernel.lean ====
abbrev S32x1024x8 : Shape := ⟨3, ![32, 1024, 8]⟩
abbrev S32x8x1024 : Shape := ⟨3, ![32, 8, 1024]⟩
abbrev S32x1024x1024 : Shape := ⟨3, ![32, 1024, 1024]⟩
abbrev S4x8x1024 : Shape := ⟨3, ![4, 8, 1024]⟩
abbrev S4x1024x1024 : Shape := ⟨3, ![4, 1024, 1024]⟩
abbrev S1x8x1024 : Shape := ⟨3, ![1, 8, 1024]⟩
abbrev S8x1024 : Shape := ⟨2, ![8, 1024]⟩
abbrev S1024x1024 : Shape := ⟨2, ![1024, 1024]⟩
abbrev S1024 : Shape := ⟨1, ![1024]⟩
abbrev S1024x1 : Shape := ⟨2, ![1024, 1]⟩
abbrev S1x1024x1024 : Shape := ⟨3, ![1, 1024, 1024]⟩

abbrev nBuf : Space → Nat
  | .hbm => 3
  | .vmem => 4
  | .smem => 0
  | _ => 0

abbrev bufTy : (tb : Table) → Fin (tcTables nBuf tb) → BufTy
  | .hbm, ⟨0, _⟩ => ⟨S32x1024x8, .f32⟩
  | .hbm, ⟨1, _⟩ => ⟨S32x8x1024, .f32⟩
  | .hbm, ⟨2, _⟩ => ⟨S32x1024x1024, .f32⟩
  | .local _ .vmem, ⟨0, _⟩ => ⟨S4x8x1024, .f32⟩
  | .local _ .vmem, ⟨1, _⟩ => ⟨S4x8x1024, .f32⟩
  | .local _ .vmem, ⟨2, _⟩ => ⟨S4x1024x1024, .f32⟩
  | .local _ .vmem, ⟨3, _⟩ => ⟨S4x1024x1024, .f32⟩
  | _, _ => ⟨S32x1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S32x1024x8_S32x8x1024_0_2_1 : S32x1024x8.Transposes [0, 2, 1] S32x8x1024
  inb_S4x8x1024_S1x8x1024_0_0_0 : ∀ a, (![0, 0, 0] : Fin 3 → Nat) a + S1x8x1024.size a ≤ S4x8x1024.size a
  h_S1x8x1024 : 0 < S1x8x1024.numel
  shapeCasts_S1x8x1024_S8x1024 : S1x8x1024.ShapeCasts S8x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  shapeCasts_S1024x1_S1024x1 : S1024x1.ShapeCasts S1024x1
  broadcasts_S1024x1_S1024x1024 : S1024x1.Broadcasts S1024x1024
  inb_S4x1024x1024_S1x1024x1024_0_0_0 : ∀ a, (![0, 0, 0] : Fin 3 → Nat) a + S1x1024x1024.size a ≤ S4x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S4x8x1024_S1x8x1024_1_0_0 : ∀ a, (![1, 0, 0] : Fin 3 → Nat) a + S1x8x1024.size a ≤ S4x8x1024.size a
  inb_S4x1024x1024_S1x1024x1024_1_0_0 : ∀ a, (![1, 0, 0] : Fin 3 → Nat) a + S1x1024x1024.size a ≤ S4x1024x1024.size a
  inb_S4x8x1024_S1x8x1024_2_0_0 : ∀ a, (![2, 0, 0] : Fin 3 → Nat) a + S1x8x1024.size a ≤ S4x8x1024.size a
  inb_S4x1024x1024_S1x1024x1024_2_0_0 : ∀ a, (![2, 0, 0] : Fin 3 → Nat) a + S1x1024x1024.size a ≤ S4x1024x1024.size a
  inb_S4x8x1024_S1x8x1024_3_0_0 : ∀ a, (![3, 0, 0] : Fin 3 → Nat) a + S1x8x1024.size a ≤ S4x8x1024.size a
  inb_S4x1024x1024_S1x1024x1024_3_0_0 : ∀ a, (![3, 0, 0] : Fin 3 → Nat) a + S1x1024x1024.size a ≤ S4x1024x1024.size a
  dot_S8x1024_S8x1024_S1024x1024_0_0_1_1_n_n_wf : DotDims.WF S8x1024 S8x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x8x1024.size a ≤ S32x8x1024.size a
  hwx0_0 : ∀ i : grid0.Coords, EltTy.bits .f32 = 32 ∨ (Rect.block (s := S32x8x1024) S4x8x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1024x1024.size a ≤ S32x1024x1024.size a
  hwx0_1 : ∀ i : grid0.Coords, EltTy.bits .f32 = 32 ∨ (Rect.block (s := S32x1024x1024) S4x1024x1024.size (cc0_transform_1 i) (hinb0_1 i)).WholeWords (EltTy.packing .f32)

variable [Facts₀]

def dot_S8x1024_S8x1024_S1024x1024_0_0_1_1_n_n : DotDims S8x1024 S8x1024 S1024x1024 where
  lhsContracting := [0]
  rhsContracting := [0]
  lhsNonContracting := [1]
  rhsNonContracting := [1]
  lhsBatch := []
  rhsBatch := []
  wf := dot_S8x1024_S8x1024_S1024x1024_0_0_1_1_n_n_wf

abbrev win0_0 : Pipeline.Window sig grid0 :=
  Pipeline.Window.ofSpec (Memref.whole main_v0) S4x8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x1024x8 : Shape := ⟨3, ![32, 1024, 8]⟩
abbrev S32x1024x1024 : Shape := ⟨3, ![32, 1024, 1024]⟩
abbrev S_ : Shape := ⟨0, ![]⟩
abbrev S1024x1024 : Shape := ⟨2, ![1024, 1024]⟩
abbrev S1x1024x1024 : Shape := ⟨3, ![1, 1024, 1024]⟩
abbrev S32x1024 : Shape := ⟨2, ![32, 1024]⟩
abbrev S32x1024x1 : Shape := ⟨3, ![32, 1024, 1]⟩

abbrev nBuf : Space → Nat
  | .hbm => 40
  | .vmem => 0
  | .smem => 0
  | _ => 0

abbrev bufTy : (tb : Table) → Fin (tcTables nBuf tb) → BufTy
  | .hbm, ⟨0, _⟩ => ⟨S32x1024x8, .f32⟩
  | .hbm, ⟨1, _⟩ => ⟨S32x1024x1024, .f32⟩
  | .hbm, ⟨2, _⟩ => ⟨S32x1024x1024, .f32⟩
  | .hbm, ⟨3, _⟩ => ⟨S_, .f32⟩
  | .hbm, ⟨4, _⟩ => ⟨S32x1024x1024, .f32⟩
  | .hbm, ⟨5, _⟩ => ⟨S32x1024x1024, .i1⟩
  | .hbm, ⟨6, _⟩ => ⟨S_, .f32⟩
  | .hbm, ⟨7, _⟩ => ⟨S32x1024x1024, .f32⟩
  | .hbm, ⟨8, _⟩ => ⟨S32x1024x1024, .i1⟩
  | .hbm, ⟨9, _⟩ => ⟨S_, .f32⟩
  | .hbm, ⟨10, _⟩ => ⟨S_, .f32⟩
  | .hbm, ⟨11, _⟩ => ⟨S32x1024x1024, .f32⟩
  | .hbm, ⟨12, _⟩ => ⟨S32x1024x1024, .f32⟩
  | .hbm, ⟨13, _⟩ => ⟨S32x1024x1024, .f32⟩
  | .hbm, ⟨14, _⟩ => ⟨S_, .f32⟩
  | .hbm, ⟨15, _⟩ => ⟨S32x1024x1024, .f32⟩
  | .hbm, ⟨16, _⟩ => ⟨S32x1024x1024, .f32⟩
  | .hbm, ⟨17, _⟩ => ⟨S32x1024x1024, .f32⟩
  | .hbm, ⟨18, _⟩ => ⟨S1024x1024, .i32⟩
  | .hbm, ⟨19, _⟩ => ⟨S1024x1024, .i32⟩
  | .hbm, ⟨20, _⟩ => ⟨S_, .i32⟩
  | .hbm, ⟨21, _⟩ => ⟨S1024x1024, .i32⟩
  | .hbm, ⟨22, _⟩ => ⟨S1024x1024, .i32⟩
  | .hbm, ⟨23, _⟩ => ⟨S1024x1024, .i1⟩
  | .hbm, ⟨24, _⟩ => ⟨S1x1024x1024, .i1⟩
  | .hbm, ⟨25, _⟩ => ⟨S_, .f32⟩
  | .hbm, ⟨26, _⟩ => ⟨S_, .f32⟩
  | .hbm, ⟨27, _⟩ => ⟨S32x1024x1024, .i1⟩
  | .hbm, ⟨28, _⟩ => ⟨S32x1024x1024, .f32⟩
  | .hbm, ⟨29, _⟩ => ⟨S32x1024x1024, .f32⟩
  | .hbm, ⟨30, _⟩ => ⟨S_, .f32⟩
  | .hbm, ⟨31, _⟩ => ⟨S32x1024, .f32⟩
  | .hbm, ⟨32, _⟩ => ⟨S32x1024x1024, .f32⟩
  | .hbm, ⟨33, _⟩ => ⟨S1x1024x1024, .i1⟩
  | .hbm, ⟨34, _⟩ => ⟨S1x1024x1024, .f32⟩
  | .hbm, ⟨35, _⟩ => ⟨S32x1024x1, .f32⟩
  | .hbm, ⟨36, _⟩ => ⟨S32x1024x1024, .f32⟩
  | .hbm, ⟨37, _⟩ => ⟨S32x1024x1024, .f32⟩
  | .hbm, ⟨38, _⟩ => ⟨S32x1024x1024, .f32⟩
  | .hbm, ⟨39, _⟩ => ⟨S32x1024x1024, .f32⟩
  | _, _ => ⟨S32x1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_cst_3 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]

class Facts₀ : Prop where
  bcast_S_S32x1024x1024 : S_.BroadcastsInDim S32x1024x1024 (![] : Fin 0 → Fin S32x1024x1024.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  reducesTo_S32x1024x1024_S32x1024_d2 : S32x1024x1024.ReducesTo [2] S32x1024
  h_S_ : 0 < S_.numel
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  dot_S32x1024x8_S32x1024x8_S32x1024x1024_2_2_1_1_0_0_wf : DotDims.WF S32x1024x8 S32x1024x8 S32x1024x1024 [2] [2] [1] [1] [0] [0]

variable [Facts₀]

def dot_S32x1024x8_S32x1024x8_S32x1024x1024_2_2_1_1_0_0 : DotDims S32x1024x8 S32x1024x8 S32x1024x1024 where
  lhsContracting := [2]
  rhsContracting := [2]
  lhsNonContracting := [1]
  rhsNonContracting := [1]
  lhsBatch := [0]
  rhsBatch := [0]
  wf := dot_S32x1024x8_S32x1024x8_S32x1024x1024_2_2_1_1_0_0_wf

class Facts : Prop extends Facts₀ where

variable [Facts]
-- ==== Proof.LaplacianSpec.lean ====
/-
  The graph Laplacian of a thresholded fidelity matrix, as ONE function of a Gram matrix g, and the two ways the
  programs of this certificate arrive at it.

  For a square matrix g (here g i j = <s_i, s_j>, the inner product of two state vectors) put f = g * g and let the
  edge weight be 1 where f >= 0.95, 1/2 where 0.95 > f >= 1/2, 0 otherwise, and 0 on the diagonal: the
  adjacency a i j, a REAL number whatever extended real g i j is, because the weight is chosen by two comparisons
  among three literals. The Laplacian is L = D - A: L i i = sum_j a i j and L i j = -(a i j) off the diagonal.

  One program builds the NEGATED weights -(a i j) directly (literals -1, -1/2, 0), sums a row of them, subtracts the
  sum from zero for the degree and selects it onto the diagonal. The other builds a, sums a row, and forms
  -a + delta * deg with delta the diagonal's indicator as a number. Both are the Laplacian: every term is the
  coercion of a real, so negation passes through the finite sum and 0 * deg = 0, 1 * deg = deg hold without a
  word about infinities.
-/
import Idealize.ShloMosaic.PureOps.Ideal
import Idealize.ShloMosaic.PureOps.Ideal.Laws
import Idealize.ShloMosaic.Lib.ValueIdx

noncomputable section

open scoped BigOperators

namespace Cert.Laplacian

open Idealize.ShloMosaic Idealize.ShloMosaic.ValueIdx

/-! ## The five literals -/

/-- The pattern of 1.0 denotes the real 1. -/
theorem lit_one : Ideal.ofBits .f32 0x3F800000#32 = ((1 : ℝ) : EReal) := by
  simp [Ideal.ofBits, Ideal.ieee, -EReal.coe_mul]; norm_num
/-- The pattern of -1.0 denotes the real -1. -/
theorem lit_neg_one : Ideal.ofBits .f32 0xBF800000#32 = ((-1 : ℝ) : EReal) := by
  simp [Ideal.ofBits, Ideal.ieee, -EReal.coe_mul]; norm_num
/-- The pattern of 0.5 denotes the real 1/2. -/
theorem lit_half : Ideal.ofBits .f32 0x3F000000#32 = ((1 / 2 : ℝ) : EReal) := by
  simp [Ideal.ofBits, Ideal.ieee, -EReal.coe_mul]; norm_num
/-- The pattern of -0.5 denotes the real -1/2. -/
theorem lit_neg_half : Ideal.ofBits .f32 0xBF000000#32 = ((-(1 / 2) : ℝ) : EReal) := by
  simp [Ideal.ofBits, Ideal.ieee, -EReal.coe_mul]; norm_num
/-- The pattern of 0.0 denotes the real 0. -/
theorem lit_zero : Ideal.ofBits .f32 0x00000000#32 = ((0 : ℝ) : EReal) := by
  rw [Ideal.ofBits_zero_f32]; rfl

/-! ## Coercions: a finite sum, a select -/

/-- The coercion of the reals into the extended reals passes through a finite sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A select between two coerced reals is the coercion of the select. -/
theorem coe_select (c : BitVec 1) (a b : ℝ) :
    Scalar.select c ((a : ℝ) : EReal) ((b : ℝ) : EReal) = ((Scalar.select c a b : ℝ) : EReal) := by
  unfold Scalar.select; split <;> rfl

/-! ## The adjacency entry from three bits -/

/-- The edge weight two comparison bits choose: 1 if the first is set, else 1/2 if the second is, else 0. -/
def weight (p q : BitVec 1) : ℝ := Scalar.select p 1 (Scalar.select q (1 / 2) 0)

/-- The adjacency entry: no self-loop (the diagonal bit d forces 0), else the weight. -/
def entry (d p q : BitVec 1) : ℝ := Scalar.select d 0 (weight p q)

/-- On the diagonal the entry is 0. -/
theorem entry_diag (p q : BitVec 1) : entry 1#1 p q = 0 := by
  unfold entry; exact select_one _ _

/-- The selects over the literals 0, 1, 1/2, 0 are the coercion of the entry. -/
theorem select_entry (d p q : BitVec 1) :
    Scalar.select d (Ideal.ofBits .f32 0x00000000#32)
      (Scalar.select p (Ideal.ofBits .f32 0x3F800000#32)
        (Scalar.select q (Ideal.ofBits .f32 0x3F000000#32) (Ideal.ofBits .f32 0x00000000#32)))
      = ((entry d p q : ℝ) : EReal) := by
  rw [lit_one, lit_half, lit_zero]
  simp only [coe_select]
  rfl

/-- The selects over the literals 0, -1, -1/2, 0 are the coercion of the NEGATED entry. -/
theorem select_neg_entry (d p q : BitVec 1) :
    Scalar.select d (Ideal.ofBits .f32 0x00000000#32)
      (Scalar.select p (Ideal.ofBits .f32 0xBF800000#32)
        (Scalar.select q (Ideal.ofBits .f32 0xBF000000#32) (Ideal.ofBits .f32 0x00000000#32)))
      = ((-(entry d p q) : ℝ) : EReal) := by
  rw [lit_neg_one, lit_neg_half, lit_zero]
  simp only [coe_select]
  refine congrArg _ ?_
  unfold entry weight Scalar.select
  split_ifs <;> norm_num

/-! ## The diagonal bit -/

/-- The bit of the comparison of two coordinates as 32-bit words. -/
def diagBit (i j : ℕ) : BitVec 1 := IntOp.cmpi .eq (BitVec.ofNat 32 i) (BitVec.ofNat 32 j)

/-- Below 2^32 the words are equal exactly when the coordinates are. -/
theorem diagBit_eq_one_iff {i j : ℕ} (hi : i < 1024) (hj : j < 1024) : diagBit i j = 1#1 ↔ i = j := by
  have key : diagBit i j = BitVec.ofBool (BitVec.ofNat 32 i == BitVec.ofNat 32 j) := rfl
  rw [key]
  by_cases h : i = j
  · subst h; simp
  · have hb : (BitVec.ofNat 32 i == BitVec.ofNat 32 j) = false := by
      rw [beq_eq_false_iff_ne]
      intro e
      apply h
      have := congrArg BitVec.toNat e
      simp only [BitVec.toNat_ofNat] at this
      omega
    rw [hb]
    simp [h]

/-- Adding the zero word to the row coordinate changes nothing. -/
theorem diagBit_add_zero (i j : ℕ) :
    IntOp.cmpi .eq (IntOp.addi (BitVec.ofNat 32 i) 0#32) (BitVec.ofNat 32 j) = diagBit i j := by
  unfold diagBit IntOp.addi
  rw [BitVec.add_zero]

/-! ## L = D - A, and the two routes to it -/

section Routes
variable {n : ℕ}

/-- The Laplacian entry of a real adjacency a: the row sum on the diagonal, the negated entry off it. -/
def lapEntry (a : Fin n → Fin n → ℝ) (i j : Fin n) : ℝ := if i = j then ∑ j', a i j' else -(a i j)

/-- THE FIRST ROUTE: negated weights, their row sum taken from zero, selected onto the diagonal. -/
theorem viaNegated (a : Fin n → Fin n → ℝ) (d : BitVec 1) (i j : Fin n) (hd : d = 1#1 ↔ i = j) (z : EReal) (hz : z = 0) :
    Scalar.select d (z - ∑ j', ((-(a i j') : ℝ) : EReal)) ((-(a i j) : ℝ) : EReal) = ((lapEntry a i j : ℝ) : EReal) := by
  unfold lapEntry
  by_cases h : i = j
  · rw [hd.mpr h, select_one, if_pos h, hz, coe_sum, ← EReal.coe_zero, ← EReal.coe_sub]
    refine congrArg _ ?_
    rw [Finset.sum_neg_distrib]; ring
  · have hd0 : d = 0#1 := eq_zero_of_ne_one fun e => h (hd.mp e)
    rw [hd0, select_zero, if_neg h]

/-- THE SECOND ROUTE: the negated entry plus the diagonal's indicator, as a number, times the row sum. -/
theorem viaIndicator (a : Fin n → Fin n → ℝ) (hdiag : ∀ i, a i i = 0) (d : BitVec 1) (i j : Fin n) (hd : d = 1#1 ↔ i = j)
    (z : EReal) (hz : z = 0) :
    -((a i j : ℝ) : EReal) + FloatOps.uitofp (F := Ideal) .f32 d * (z + ∑ j', ((a i j' : ℝ) : EReal))
      = ((lapEntry a i j : ℝ) : EReal) := by
  unfold lapEntry
  rw [hz, coe_sum, zero_add]
  by_cases h : i = j
  · rw [hd.mpr h, if_pos h]
    subst h
    rw [hdiag i]
    show -((0 : ℝ) : EReal) + (((1#1 : BitVec 1).toNat : ℝ) : EReal) * _ = _
    norm_num
  · have hd0 : d = 0#1 := eq_zero_of_ne_one fun e => h (hd.mp e)
    rw [hd0, if_neg h]
    show -((a i j : ℝ) : EReal) + (((0#1 : BitVec 1).toNat : ℝ) : EReal) * _ = _
    norm_num

end Routes

/-! ## The result as one function of the states -/

/-- The bit of "the fidelity f is at least 0.95" (the literal both programs spell). -/
def hiBit (f : EReal) : BitVec 1 := FloatOps.cmpf (F := Ideal) (φ := .f32) .oge f (Ideal.ofBits .f32 0x3F733333#32)
/-- The bit of "the fidelity f is at least 1/2". -/
def loBit (f : EReal) : BitVec 1 := FloatOps.cmpf (F := Ideal) (φ := .f32) .oge f (Ideal.ofBits .f32 0x3F000000#32)

/-- The adjacency of a Gram matrix g: the weight the squared entry's two bits choose, no self-loops. -/
def adj (g : Fin 1024 → Fin 1024 → EReal) (i j : Fin 1024) : ℝ :=
  entry (diagBit i.val j.val) (hiBit (g i j * g i j)) (loBit (g i j * g i j))

/-- The coordinates' comparison bit is set exactly on the diagonal. -/
theorem diagBit_fin (i j : Fin 1024) : diagBit i.val j.val = 1#1 ↔ i = j :=
  (diagBit_eq_one_iff i.isLt j.isLt).trans Fin.ext_iff.symm

theorem adj_diag (g : Fin 1024 → Fin 1024 → EReal) (i : Fin 1024) : adj g i i = 0 := by
  unfold adj
  rw [(diagBit_fin i i).mpr rfl]
  exact entry_diag _ _

/-- The Laplacian of a Gram matrix, an extended real that is always the coercion of a real. -/
def lap (g : Fin 1024 → Fin 1024 → EReal) (i j : Fin 1024) : EReal := ((lapEntry (adj g) i j : ℝ) : EReal)

/-- The negated weight as the first route selects it among the literals 0, -1, -1/2, 0. -/
def negSel (g : Fin 1024 → Fin 1024 → EReal) (i j : Fin 1024) : EReal :=
  Scalar.select (diagBit i.val j.val) (Ideal.ofBits .f32 0x00000000#32)
    (Scalar.select (hiBit (g i j * g i j)) (Ideal.ofBits .f32 0xBF800000#32)
      (Scalar.select (loBit (g i j * g i j)) (Ideal.ofBits .f32 0xBF000000#32) (Ideal.ofBits .f32 0x00000000#32)))

/-- The weight as the second route selects it among the literals 0, 1, 1/2, 0. -/
def posSel (g : Fin 1024 → Fin 1024 → EReal) (i j : Fin 1024) : EReal :=
  Scalar.select (diagBit i.val j.val) (Ideal.ofBits .f32 0x00000000#32)
    (Scalar.select (hiBit (g i j * g i j)) (Ideal.ofBits .f32 0x3F800000#32)
      (Scalar.select (loBit (g i j * g i j)) (Ideal.ofBits .f32 0x3F000000#32) (Ideal.ofBits .f32 0x00000000#32)))

theorem negSel_eq (g : Fin 1024 → Fin 1024 → EReal) (i j : Fin 1024) : negSel g i j = ((-(adj g i j) : ℝ) : EReal) :=
  select_neg_entry _ _ _

theorem posSel_eq (g : Fin 1024 → Fin 1024 → EReal) (i j : Fin 1024) : posSel g i j = ((adj g i j : ℝ) : EReal) :=
  select_entry _ _ _

/-- The first route ends at the Laplacian. -/
theorem lap_of_negated (g : Fin 1024 → Fin 1024 → EReal) (i j : Fin 1024) :
    Scalar.select (diagBit i.val j.val) (Ideal.ofBits .f32 0x00000000#32 - ∑ j' : Fin 1024, negSel g i j') (negSel g i j)
      = lap g i j := by
  simp only [negSel_eq]
  exact viaNegated (adj g) _ i j (diagBit_fin i j) _ Ideal.ofBits_zero_f32

/-- The second route ends at the Laplacian. -/
theorem lap_of_indicator (g : Fin 1024 → Fin 1024 → EReal) (i j : Fin 1024) :
    -(posSel g i j) + FloatOps.uitofp (F := Ideal) .f32 (diagBit i.val j.val)
        * (Ideal.ofBits .f32 0x00000000#32 + ∑ j' : Fin 1024, posSel g i j')
      = lap g i j := by
  simp only [posSel_eq]
  exact viaIndicator (adj g) (adj_diag g) _ i j (diagBit_fin i j) _ Ideal.ofBits_zero_f32

/-- The states: 32 batches of 1024 vectors of 8 coordinates; the result: 32 matrices 1024 by 1024. -/
abbrev SStates : Shape := ⟨3, ![32, 1024, 8]⟩
abbrev SLap : Shape := ⟨3, ![32, 1024, 1024]⟩

/-- The Gram matrix of batch b: the inner products of its state vectors. -/
def gram (x : SStates.Idx → EReal) (b : Fin 32) : Fin 1024 → Fin 1024 → EReal :=
  fun i j => ∑ k : Fin 8, x (ix3 b i k) * x (ix3 b j k)

/-- THE RESULT both programs compute: per batch, the Laplacian of the thresholded squared Gram matrix. -/
def G (x : SStates.Idx → EReal) : SLap.Idx → EReal := fun idx => lap (gram x (idx 0)) (idx 1) (idx 2)

end Cert.Laplacian

end
-- ==== Proof.KernelSlot.lean ====
/-
  What the kernel's body stores for ONE batch element, read at an index. The body handles four batch elements in
  turn; each takes its 8 x 1024 slab of the transposed states, forms the Gram matrix on the matrix unit (contracting
  the 8 coordinates), squares it, selects the NEGATED weight among 0, -1, -1/2, 0 by the diagonal bit and the two
  threshold bits, sums each row, takes the sum from zero for the degree and selects it onto the diagonal: the first
  route of the specification. The four stores carry the same function of their slab (the printed body's statements are
  cut into parts by count, so the four payloads are spelt over different intermediate names).
-/
import proofs.«114448_g65481071400876_cont_9to1_m_40_11_alg».proof.Proof.Gen.KernelIdeal.Skeleton
import proofs.«114448_g65481071400876_cont_9to1_m_40_11_alg».proof.Proof.LaplacianSpec
import Idealize.ShloMosaic.Lib.Pipeline.Value
import Idealize.ShloMosaic.Lib.ValueLayout
import Idealize.ShloMosaic.PureOps.Ideal.Laws

noncomputable section

open scoped BigOperators

namespace Cert.KernelIdeal.Slot

open Cert.KernelIdeal Cert.KernelIdeal.Gen Cert.Laplacian Idealize.ShloMosaic Idealize.ShloMosaic.ValueIdx

/-! ## The four stores carry one function of the slab they load -/

section AnyInstance
variable {F : FTy → Type} [FloatOps F]

theorem second_store_eq (v : Vec F S1x8x1024 .f32) :
    k0_pay7 (k0_pay5 v) (k0_pay6 v) (Scalar.ofBits .f32 0xBF000000#32) = k0_pay3 v := rfl

theorem third_store_eq (v : Vec F S1x8x1024 .f32) :
    k0_pay1 (F := F) k0_pay8 (k0_pay9 v) (k0_pay10 v) = k0_pay3 v := rfl

theorem fourth_store_eq (v : Vec F S1x8x1024 .f32) : k0_pay2 v = k0_pay3 v := rfl

end AnyInstance

/-! ## The Gram matrix of a slab -/

theorem lhs_gram_0 (i : S1024x1024.Idx) (q : dot_S8x1024_S8x1024_S1024x1024_0_0_1_1_n_n.contr.Idx) :
    (dot_S8x1024_S8x1024_S1024x1024_0_0_1_1_n_n.lhsIdx i q 0).val = (q ⟨0, by decide⟩).val :=
  dot_S8x1024_S8x1024_S1024x1024_0_0_1_1_n_n.lhsIdx_val_of_single rfl i q
theorem lhs_gram_1 (i : S1024x1024.Idx) (q : dot_S8x1024_S8x1024_S1024x1024_0_0_1_1_n_n.contr.Idx) :
    (dot_S8x1024_S8x1024_S1024x1024_0_0_1_1_n_n.lhsIdx i q 1).val = (i 0).val := by
  unfold DotDims.lhsIdx
  rw [dif_neg (show ¬(1 : Fin S8x1024.rank) ∈ dot_S8x1024_S8x1024_S1024x1024_0_0_1_1_n_n.lhsBatch by decide), dif_pos (show (1 : Fin S8x1024.rank) ∈ dot_S8x1024_S8x1024_S1024x1024_0_0_1_1_n_n.lhsNonContracting by decide)]
  rfl
theorem rhs_gram_0 (i : S1024x1024.Idx) (q : dot_S8x1024_S8x1024_S1024x1024_0_0_1_1_n_n.contr.Idx) :
    (dot_S8x1024_S8x1024_S1024x1024_0_0_1_1_n_n.rhsIdx i q 0).val = (q ⟨0, by decide⟩).val :=
  dot_S8x1024_S8x1024_S1024x1024_0_0_1_1_n_n.rhsIdx_val_of_single rfl i q
theorem rhs_gram_1 (i : S1024x1024.Idx) (q : dot_S8x1024_S8x1024_S1024x1024_0_0_1_1_n_n.contr.Idx) :
    (dot_S8x1024_S8x1024_S1024x1024_0_0_1_1_n_n.rhsIdx i q 1).val = (i 1).val := by
  unfold DotDims.rhsIdx
  rw [dif_neg (show ¬(1 : Fin S8x1024.rank) ∈ dot_S8x1024_S8x1024_S1024x1024_0_0_1_1_n_n.rhsBatch by decide), dif_pos (show (1 : Fin S8x1024.rank) ∈ dot_S8x1024_S8x1024_S1024x1024_0_0_1_1_n_n.rhsNonContracting by decide)]
  rfl

/-- The product of a slab's transpose with the slab, into zero, at (i, j): the inner product of columns i and j. -/
theorem gram_block_apply (w : FVec Ideal S8x1024 .f32) (i j : Fin 1024) :
    matmul dot_S8x1024_S8x1024_S1024x1024_0_0_1_1_n_n none w w (constant (F := Ideal) S1024x1024 .f32 0x00000000#32) (ix2 i j)
      = ∑ k : Fin 8, w (ix2 k i) * w (ix2 k j) := by
  refine (Ideal.matmul_constant_zero_apply dot_S8x1024_S8x1024_S1024x1024_0_0_1_1_n_n none w w (ix2 i j)).trans ?_
  rw [← Equiv.sum_comp (contrEquiv1 dot_S8x1024_S8x1024_S1024x1024_0_0_1_1_n_n 8 rfl rfl).symm]
  refine Finset.sum_congr rfl fun k _ => ?_
  have hk := contrEquiv1_symm_val dot_S8x1024_S8x1024_S1024x1024_0_0_1_1_n_n 8 rfl rfl k
  have el : dot_S8x1024_S8x1024_S1024x1024_0_0_1_1_n_n.lhsIdx (ix2 i j) ((contrEquiv1 dot_S8x1024_S8x1024_S1024x1024_0_0_1_1_n_n 8 rfl rfl).symm k) = ix2 k i := funext fun a => Fin.ext (by
    match a with
    | ⟨0, _⟩ => exact (lhs_gram_0 _ _).trans hk
    | ⟨1, _⟩ => exact lhs_gram_1 _ _)
  have er : dot_S8x1024_S8x1024_S1024x1024_0_0_1_1_n_n.rhsIdx (ix2 i j) ((contrEquiv1 dot_S8x1024_S8x1024_S1024x1024_0_0_1_1_n_n 8 rfl rfl).symm k) = ix2 k j := funext fun a => Fin.ext (by
    match a with
    | ⟨0, _⟩ => exact (rhs_gram_0 _ _).trans hk
    | ⟨1, _⟩ => exact rhs_gram_1 _ _)
  rw [el, er]

/-! ## The column forms a keepdims row sum passes through -/

/-- A vector of length a viewed as a column [a, 1] reads its entry i at (i, u). -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along its rows to [a, b] reads, at (p, c), the column's entry p. -/
theorem broadcastTo_a1_ab_apply {α : Type} {a b : ℕ} (v : (⟨2, ![a, 1]⟩ : Shape).Idx → α) (h : (⟨2, ![a, 1]⟩ : Shape).Broadcasts ⟨2, ![a, b]⟩)
    (hb : a ≠ 1) (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg hb]
  | ⟨1, _⟩ => rfl

/-! ## The body for one batch element, over its Gram block -/

section Body
variable (M : FVec Ideal S1024x1024 .f32)

/-- The diagonal mask of the body: row coordinate equal to column coordinate, as words. -/
def eye : IVec S1024x1024 1 :=
  cmpi .eq (iota .tc S1024x1024 32 [0] iota_S1024x1024_d0_w32) (iota .tc S1024x1024 32 [1] iota_S1024x1024_d1_w32)

/-- The negated weights with the diagonal cleared, as the body's operations spell them over the Gram block M. -/
def negWeights : FVec Ideal S1024x1024 .f32 :=
  select eye (broadcast S1024x1024 (Scalar.ofBits (F := Ideal) .f32 0x00000000#32))
    (select (cmpf .oge (mulf M M) (broadcast S1024x1024 (Scalar.ofBits (F := Ideal) .f32 0x3F733333#32)))
      (broadcast S1024x1024 (Scalar.ofBits (F := Ideal) .f32 0xBF800000#32))
      (select (cmpf .oge (mulf M M) (broadcast S1024x1024 (Scalar.ofBits (F := Ideal) .f32 0x3F000000#32)))
        (broadcast S1024x1024 (Scalar.ofBits (F := Ideal) .f32 0xBF000000#32))
        (broadcast S1024x1024 (Scalar.ofBits (F := Ideal) .f32 0x00000000#32))))

/-- The degree column: zero minus the row sums of the negated weights, kept as a column. -/
def degreeCol : FVec Ideal S1024x1 .f32 :=
  subf (broadcast S1024x1 (Scalar.ofBits (F := Ideal) .f32 0x00000000#32))
    (shapeCast S1024x1 (multiReduction (F := Ideal) .add [1] S1024 (negWeights M) 0x00000000#32 reduces_S1024x1024_S1024 (.inl rfl) rfl) shapeCasts_S1024_S1024x1)

/-- What the body stores for the element: the degree on the diagonal, the negated weight off it, as a [1, n, n] slab. -/
def stored : FVec Ideal S1x1024x1024 .f32 :=
  shapeCast S1x1024x1024
    (select eye (broadcastTo S1024x1024 (shapeCast S1024x1 (degreeCol M) shapeCasts_S1024x1_S1024x1) broadcasts_S1024x1_S1024x1024)
      (negWeights M)) shapeCasts_S1024x1024_S1x1024x1024

end Body

/-- The first store's payload is stored of the slab's Gram block. -/
theorem first_store_eq (v : Vec Ideal S1x8x1024 .f32) :
    k0_pay3 (F := Ideal) v = stored (matmul dot_S8x1024_S8x1024_S1024x1024_0_0_1_1_n_n none
      (shapeCast S8x1024 v shapeCasts_S1x8x1024_S8x1024 : FVec Ideal S8x1024 .f32) (shapeCast S8x1024 v shapeCasts_S1x8x1024_S8x1024 : FVec Ideal S8x1024 .f32)
      (constant (F := Ideal) S1024x1024 .f32 0x00000000#32)) := rfl

section BodyAt
variable (M : FVec Ideal S1024x1024 .f32) (g : Fin 1024 → Fin 1024 → EReal) (hM : ∀ i j, M (ix2 i j) = g i j)
include hM

/-- The diagonal mask at (i, j) is the coordinates' comparison bit. -/
theorem eye_apply (i j : Fin 1024) : eye (ix2 i j) = diagBit i.val j.val := by
  show IntOp.cmpi .eq (iota .tc S1024x1024 32 [0] iota_S1024x1024_d0_w32 (ix2 i j)) (iota .tc S1024x1024 32 [1] iota_S1024x1024_d1_w32 (ix2 i j)) = _
  rw [iota_single_apply, iota_single_apply]
  rfl

/-- The negated weights at (i, j): the first route's select over the Gram matrix g. -/
theorem negWeights_apply (i j : Fin 1024) : negWeights M (ix2 i j) = negSel g i j := by
  show Scalar.select (eye (ix2 i j)) (Ideal.ofBits .f32 0x00000000#32)
    (Scalar.select (FloatOps.cmpf (F := Ideal) (φ := .f32) .oge (M (ix2 i j) * M (ix2 i j)) (Ideal.ofBits .f32 0x3F733333#32)) (Ideal.ofBits .f32 0xBF800000#32)
      (Scalar.select (FloatOps.cmpf (F := Ideal) (φ := .f32) .oge (M (ix2 i j) * M (ix2 i j)) (Ideal.ofBits .f32 0x3F000000#32)) (Ideal.ofBits .f32 0xBF000000#32)
        (Ideal.ofBits .f32 0x00000000#32))) = _
  rw [eye_apply M g hM, hM]
  rfl

/-- The degree column at row i: zero minus the row sum of the negated weights. -/
theorem degreeCol_apply (i : Fin 1024) (u : Fin 1) :
    degreeCol M (ix2 i u) = Ideal.ofBits .f32 0x00000000#32 - ∑ j' : Fin 1024, negSel g i j' := by
  show Ideal.ofBits .f32 0x00000000#32 - shapeCast S1024x1 (multiReduction (F := Ideal) .add [1] S1024 (negWeights M) 0x00000000#32 reduces_S1024x1024_S1024 (.inl rfl) rfl) shapeCasts_S1024_S1024x1 (ix2 i u) = _
  rw [shapeCast_a_a1_apply]
  refine congrArg (Ideal.ofBits .f32 0x00000000#32 - ·) ?_
  refine (Ideal.multiReduction_add_single (negWeights M) 0x00000000#32 reduces_S1024x1024_S1024 (.inl rfl) rfl (ix1 i)).trans ?_
  refine Finset.sum_congr rfl fun k _ => ?_
  have e : reduces_S1024x1024_S1024.lift (ix1 i) k = ix2 i k := funext fun a => Fin.ext (by
    match a with | ⟨0, _⟩ => rfl | ⟨1, _⟩ => rfl)
  rw [e]
  exact negWeights_apply M g hM i k

/-- What is stored for the element, at (u, i, j): the Laplacian of g. -/
theorem stored_apply (u : Fin 1) (i j : Fin 1024) : stored M (ix3 u i j) = lap g i j := by
  unfold stored
  rw [shapeCast_ab_1ab_apply]
  show Scalar.select (eye (ix2 i j))
    (broadcastTo S1024x1024 (shapeCast S1024x1 (degreeCol M) shapeCasts_S1024x1_S1024x1) broadcasts_S1024x1_S1024x1024 (ix2 i j))
    (negWeights M (ix2 i j)) = _
  rw [eye_apply M g hM, negWeights_apply M g hM, broadcastTo_a1_ab_apply _ _ (by decide), shapeCast_self, degreeCol_apply M g hM]
  exact lap_of_negated g i j

end BodyAt

/-- A slab's column (k, i) through the cast that drops its unit axis. -/
theorem slab_apply (v : Vec Ideal S1x8x1024 .f32) (k : Fin 8) (i : Fin 1024) :
    shapeCast S8x1024 v shapeCasts_S1x8x1024_S8x1024 (ix2 k i) = v (ix3 (0 : Fin 1) k i) :=
  shapeCast_1ab_ab_apply v _ k i

/-- THE SLOT: what any of the four stores carries for a loaded slab v, at (u, i, j), is the Laplacian of the slab's
    Gram matrix g i j = sum over k of v(0, k, i) * v(0, k, j). -/
theorem slot_apply (v : Vec Ideal S1x8x1024 .f32) (u : Fin 1) (i j : Fin 1024) :
    k0_pay3 (F := Ideal) v (ix3 u i j) = lap (fun i j => ∑ k : Fin 8, v (ix3 (0 : Fin 1) k i) * v (ix3 (0 : Fin 1) k j)) i j := by
  rw [first_store_eq]
  refine stored_apply _ _ (fun i j => ?_) u i j
  rw [gram_block_apply]
  refine Finset.sum_congr rfl fun k _ => ?_
  rw [slab_apply, slab_apply]

end Cert.KernelIdeal.Slot

end
-- ==== Proof.KernelArray.lean ====
/-
  From the body's blocks to the whole result array. The grid has 8 points; point t stages rows 4t .. 4t+3 of the
  transposed states (a host transpose made them [32, 8, 1024] before the call) and writes back rows 4t .. 4t+3 of the
  [32, 1024, 1024] result. Inside a block the body's four stores are the four batch elements, each the Laplacian of
  its slab's Gram matrix: so the block a point leaves is one function of the staged block, what it writes back is the
  block of the specification's G at the same rows, and the eight blocks tile the array.
-/
import proofs.«114448_g65481071400876_cont_9to1_m_40_11_alg».proof.Proof.Gen.KernelIdeal.Value
import proofs.«114448_g65481071400876_cont_9to1_m_40_11_alg».proof.Proof.KernelSlot
import Idealize.ShloMosaic.Lib.Pipeline.Value
import Idealize.ShloMosaic.Lib.ValueLayout
import Idealize.ShloMosaic.Lib.StableHlo.Run

noncomputable section

open scoped BigOperators

namespace Cert.KernelIdeal.Whole

open Cert.KernelIdeal Cert.KernelIdeal.Gen Cert.KernelIdeal.Value Cert.KernelIdeal.Slot Cert.Laplacian
open Idealize.ShloMosaic Idealize.ShloMosaic.TcCoe Idealize.SL.Sem Idealize.ShloMosaic.ValueIdx
open Idealize.ShloMosaic.Pipeline (Dat)

/-! ## A staged block to the block the body leaves -/

/-- The block a point leaves, as one function of the staged block x0 of transposed states: batch element s of the
    block at (i, j) is the Laplacian of the Gram matrix of slab s. -/
def blockLap (x0 : Vec Ideal S4x8x1024 .f32) : Vec Ideal S4x1024x1024 .f32 := fun y =>
  lap (fun i j => ∑ k : Fin 8, x0 (ix3 (y 0 : Fin 4) k i) * x0 (ix3 (y 0 : Fin 4) k j)) (y 1 : Fin 1024) (y 2 : Fin 1024)

/-- One store: the payload of the slab loaded at offset (s, 0, 0), at a local index, is blockLap at the index the
    store's rectangle (the same offset) embeds it to. -/
theorem store_piece (x0 : Vec Ideal S4x8x1024 .f32) (s : Fin 4) (off : Fin 3 → ℕ) (hoff : off = ![s.val, 0, 0])
    (inb8 : ∀ a, off a + S1x8x1024.size a ≤ S4x8x1024.size a)
    (inbN : ∀ a, off a + S1x1024x1024.size a ≤ S4x1024x1024.size a) (x : S1x1024x1024.Idx) :
    k0_pay3 (F := Ideal) (View.ld x0 (Rect.unit (s := S4x8x1024) off S1x8x1024.size inb8)) x
      = blockLap x0 ((Rect.unit (s := S4x1024x1024) off S1x1024x1024.size inbN).emb x) := by
  subst hoff
  obtain ⟨u, i, j, rfl⟩ : ∃ (u : Fin 1) (i j : Fin 1024), x = ix3 u i j := ⟨x 0, x 1, x 2, eq_ix3 x⟩
  have hu : u.val = 0 := by omega
  have e : (Rect.unit (s := S4x1024x1024) ![s.val, 0, 0] S1x1024x1024.size inbN).emb (ix3 u i j) = ix3 s i j :=
    funext fun a => Fin.ext (by
      match a with
      | ⟨0, _⟩ => show s.val + 1 * u.val = s.val; omega
      | ⟨1, _⟩ => show 0 + 1 * i.val = i.val; omega
      | ⟨2, _⟩ => show 0 + 1 * j.val = j.val; omega)
  have hld : ∀ (k : Fin 8) (n : Fin 1024),
      View.ld x0 (Rect.unit (s := S4x8x1024) ![s.val, 0, 0] S1x8x1024.size inb8) (ix3 (0 : Fin 1) k n) = x0 (ix3 s k n) :=
    fun k n => congrArg x0 (funext fun a => Fin.ext (by
      match a with
      | ⟨0, _⟩ => show s.val + 1 * 0 = s.val; omega
      | ⟨1, _⟩ => show 0 + 1 * k.val = k.val; omega
      | ⟨2, _⟩ => show 0 + 1 * n.val = n.val; omega))
  rw [slot_apply, e]
  simp only [hld]
  rfl

/-- The four stores together: the buffer the body leaves is blockLap of the staged block. -/
theorem out_eq_blockLap (x0 : Vec Ideal S4x8x1024 .f32) : out0_1 x0 = blockLap x0 := by
  funext y
  unfold out0_1
  refine View.canon_apply_of_pieces (blockLap x0) _ ?_ y (cover0_1 _ _ _ _ y)
  intro p hp
  simp only [List.mem_cons, List.not_mem_nil, or_false] at hp
  rcases hp with rfl | rfl | rfl | rfl
  · intro x
    exact (congrFun (fourth_store_eq _) x).trans (store_piece x0 3 ![3, 0, 0] rfl inb_S4x8x1024_S1x8x1024_3_0_0 inb_S4x1024x1024_S1x1024x1024_3_0_0 x)
  · intro x
    exact (congrFun (third_store_eq _) x).trans (store_piece x0 2 ![2, 0, 0] rfl inb_S4x8x1024_S1x8x1024_2_0_0 inb_S4x1024x1024_S1x1024x1024_2_0_0 x)
  · intro x
    exact (congrFun (second_store_eq _) x).trans (store_piece x0 1 ![1, 0, 0] rfl inb_S4x8x1024_S1x8x1024_1_0_0 inb_S4x1024x1024_S1x1024x1024_1_0_0 x)
  · intro x
    exact store_piece x0 0 ![0, 0, 0] rfl inb_S4x8x1024_S1x8x1024_0_0_0 inb_S4x1024x1024_S1x1024x1024_0_0_0 x

/-! ## The staged block is rows of the transposed argument -/

variable (m : (ℓ : Loc nD τ sig) → Buf (Elt Ideal) ℓ) (ρ : Dev nD → PrngReg)

/-- The array the input window stages is the host's transpose of the argument. -/
theorem states_t (c : Dev nD) :
    (V m c main_v0 : S32x8x1024.Idx → EReal)
      = transpose S32x8x1024 [0, 2, 1] (m ((c : Thread nD τ).loc main_arg0)) transposes_S32x1024x8_S32x8x1024_0_2_1 := by
  dsimp only [Gen.V, Gen.hostOps0]; after_results

/-- The printed index maps, decided over the grid: both windows' block index at point t is (t, 0, 0). -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- The block of transposed states staged at point t, at its literal type. -/
abbrev xblk (c : Dev nD) (t : Fin cfg0.N) : Vec Ideal S4x8x1024 .f32 := iblk m c 0 t

/-- Entry (s, k, i) of the block staged at point t is the argument at (4t + s, i, k). -/
theorem block_read (c : Dev nD) (t : Fin cfg0.N) (s : Fin 4) (k : Fin 8) (i : Fin 1024) (B : Fin 32)
    (hB : B.val = t.val * 4 + s.val) :
    xblk m c t (ix3 s k i)
      = (m ((c : Thread nD τ).loc main_arg0) : S32x1024x8.Idx → EReal) (ix3 B i k) := by
  obtain ⟨e0, e1, e2, -, -, -⟩ := idx_facts t
  unfold xblk iblk
  rw [View.read_apply]
  show (V m c main_v0 : S32x8x1024.Idx → EReal) _ = _
  rw [states_t]
  have e : ((cfg0.win 0).blk t).view.emb (ix3 s k i) = ix3 B k i := funext fun a => Fin.ext (by
    match a with
    | ⟨0, _⟩ => show win0_0.index t (0 : Fin 3) * 4 + 1 * s.val = B.val; omega
    | ⟨1, _⟩ => show win0_0.index t (1 : Fin 3) * 8 + 1 * k.val = k.val; omega
    | ⟨2, _⟩ => show win0_0.index t (2 : Fin 3) * 1024 + 1 * i.val = i.val; omega)
  rw [e]
  exact transpose_ix3_021_apply _ _ B k i

/-! ## What a point writes back, the cover, the array -/

/-- WHAT POINT t WRITES BACK is block t of G of the argument. -/
theorem flushed_eq (c : Dev nD) (t : Fin cfg0.N) :
    (dats m 0 c).flushed 1 t
      = ((cfg0.win 1).blk t).view.read (Elt Ideal) (G (m ((c : Thread nD τ).loc main_arg0))) := by
  rw [flushed1, out_eq_blockLap]
  obtain ⟨-, -, -, e0, e1, e2⟩ := idx_facts t
  funext y
  have h0 : (y 0).val < 4 := (y 0).isLt
  have ht : t.val < 8 := by have := t.isLt; have hN : cfg0.N = 8 := N_0; omega
  let B : Fin 32 := ⟨t.val * 4 + (y 0).val, by omega⟩
  have e : ((cfg0.win 1).blk t).view.emb y = ix3 B (y 1 : Fin 1024) (y 2 : Fin 1024) := funext fun a => Fin.ext (by
    match a with
    | ⟨0, _⟩ => show win0_1.index t (0 : Fin 3) * 4 + 1 * (y 0).val = t.val * 4 + (y 0).val; omega
    | ⟨1, _⟩ => show win0_1.index t (1 : Fin 3) * 1024 + 1 * (y 1).val = (y 1).val; omega
    | ⟨2, _⟩ => show win0_1.index t (2 : Fin 3) * 1024 + 1 * (y 2).val = (y 2).val; omega)
  have hg : (fun i j : Fin 1024 => ∑ k : Fin 8, xblk m c t (ix3 (y 0 : Fin 4) k i) * xblk m c t (ix3 (y 0 : Fin 4) k j))
      = gram (m ((c : Thread nD τ).loc main_arg0)) B :=
    funext fun i => funext fun j => Finset.sum_congr rfl fun k _ => by
      rw [block_read m c t (y 0) k i B rfl, block_read m c t (y 0) k j B rfl]
  show blockLap (xblk m c t) y = G (m ((c : Thread nD τ).loc main_arg0)) (((cfg0.win 1).blk t).view.emb y)
  rw [e]
  show lap _ (y 1 : Fin 1024) (y 2 : Fin 1024) = lap (gram (m ((c : Thread nD τ).loc main_arg0)) B) (y 1 : Fin 1024) (y 2 : Fin 1024)
  rw [← hg]

/-- An index of the array is in point t's block iff each coordinate is in the block's range on its axis. -/
theorem mem_blk (t : Fin cfg0.N) (i : S32x1024x1024.Idx) :
    i ∈ ((cfg0.win 1).blk t).view.set ↔ ∀ a : Fin 3, win0_1.index t a * S4x1024x1024.size a ≤ (i a).val
      ∧ (i a).val < win0_1.index t a * S4x1024x1024.size a + S4x1024x1024.size a := by
  show i ∈ ((View.whole main_v1).slice (win0_1.rect t)).set ↔ _
  rw [View.set_slice_whole, Rect.mem_set_unit]
  exact Iff.rfl

/-- Every index of the result is in the block of the point its batch coordinate names: i0 / 4. -/
theorem cover (i : S32x1024x1024.Idx) :
    ∃ t : Fin cfg0.N, (cfg0.win 1).flush t = true ∧ i ∈ ((cfg0.win 1).blk t).view.set := by
  have hi0 : (i 0).val < 32 := (i 0).isLt
  have hi1 : (i 1).val < 1024 := (i 1).isLt
  have hi2 : (i 2).val < 1024 := (i 2).isLt
  have hN : cfg0.N = 8 := N_0
  obtain ⟨t, htv⟩ : ∃ t : Fin cfg0.N, t.val = (i 0).val / 4 := ⟨⟨(i 0).val / 4, by rw [hN]; omega⟩, rfl⟩
  obtain ⟨-, -, -, e0, e1, e2⟩ := idx_facts t
  refine ⟨t, flush0_1 t, ?_⟩
  rw [mem_blk]
  intro a
  match a with
  | ⟨0, _⟩ => show win0_1.index t (0 : Fin 3) * 4 ≤ (i 0).val ∧ (i 0).val < win0_1.index t (0 : Fin 3) * 4 + 4; omega
  | ⟨1, _⟩ => show win0_1.index t (1 : Fin 3) * 1024 ≤ (i 1).val ∧ (i 1).val < win0_1.index t (1 : Fin 3) * 1024 + 1024; omega
  | ⟨2, _⟩ => show win0_1.index t (2 : Fin 3) * 1024 ≤ (i 2).val ∧ (i 2).val < win0_1.index t (2 : Fin 3) * 1024 + 1024; omega

/-- THE ARRAY after the run is G of the argument. -/
theorem final (c : Dev nD) : (dats m 0 c).arrAt 1 cfg0.N = G (m ((c : Thread nD τ).loc main_arg0)) :=
  (dats m 0 c).arrAt_eq_of_cover 1 _ (fun t _ => flushed_eq m c t) cover

/-- The kernel's run, read: the result array at G of the argument, the argument unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Whole

end
-- ==== Proof.ReferenceIsLap.lean ====
/-
  The reference computes the Laplacian: its last value, read one operation at a time at an index (b, i, j), is
  -(w) + delta * (0 + sum over j' of w), with w the weight selected among 0, 1, 1/2, 0 by the diagonal bit and the two
  threshold bits of the squared inner product of states i and j of batch b, and delta the diagonal bit as a number:
  the second route of the specification.
-/
import proofs.«114448_g65481071400876_cont_9to1_m_40_11_alg».proof.Proof.Gen.ReferenceIdeal.Read
import proofs.«114448_g65481071400876_cont_9to1_m_40_11_alg».proof.Proof.LaplacianSpec

noncomputable section

open scoped BigOperators

namespace Cert.ReferenceIdeal.IsLap

open Cert.ReferenceIdeal Cert.ReferenceIdeal.Read Cert.Laplacian Idealize.ShloMosaic Idealize.ShloMosaic.ValueIdx

variable (x0 : (⟨S32x1024x8, .f32⟩ : BufTy).Contents (Elt Ideal))

/-- The einsum at (b, i, j) is the inner product of states i and j of batch b. -/
theorem gram_at (b : Fin 32) (i j : Fin 1024) :
    val_main_v0 (F := Ideal) x0 (ix3 b i j) = gram x0 b i j := by
  rw [val_main_v0_apply]
  unfold gram
  refine Finset.sum_congr rfl fun k _ => ?_
  have el : lidx_main_v0 (ix3 b i j) k = ix3 b i k := funext fun a => Fin.ext (by
    match a with | ⟨0, _⟩ => rfl | ⟨1, _⟩ => rfl | ⟨2, _⟩ => rfl)
  have er : ridx_main_v0 (ix3 b i j) k = ix3 b j k := funext fun a => Fin.ext (by
    match a with | ⟨0, _⟩ => rfl | ⟨1, _⟩ => rfl | ⟨2, _⟩ => rfl)
  rw [el, er]

/-- The identity mask at (i, j) is the comparison bit of the two coordinates. -/
theorem eye_at (i j : Fin 1024) : val_main_v13 (F := Ideal) (ix2 i j) = diagBit i.val j.val := by
  rw [val_main_v13_apply, val_main_v12_apply, val_main_v9_apply, val_main_v10_apply, val_main_v11_apply, val_main_c_apply]
  exact diagBit_add_zero _ _

/-- The weights with the diagonal cleared, at (b, i, j): the second route's select. -/
theorem weights_at (b : Fin 32) (i j : Fin 1024) :
    val_main_v15 (F := Ideal) x0 (ix3 b i j) = posSel (gram x0 b) i j := by
  have e14 : idx_main_v14 (idx_main_call2_v1 (ix3 b i j)) = ix2 i j := funext fun a => Fin.ext (by
    match a with | ⟨0, _⟩ => rfl | ⟨1, _⟩ => rfl)
  rw [val_main_v15_apply, val_main_call2_v1_apply, val_main_v14_apply, e14, eye_at,
    val_main_call2_v2_apply, val_main_call2_v0_apply, val_main_cst_4_apply,
    val_main_v8_apply, val_main_v7_apply, val_main_v3_apply, val_main_v1_apply, gram_at,
    val_main_v2_apply, val_main_cst_apply, val_main_call1_v0_apply, val_main_cst_3_apply,
    val_main_v6_apply, val_main_v5_apply, val_main_v1_apply, gram_at, val_main_v4_apply, val_main_cst_0_apply,
    val_main_call0_v0_apply, val_main_cst_1_apply, val_main_call0_v1_apply, val_main_cst_2_apply]
  rfl

/-- The reference's result is the specification's function of the states. -/
theorem result_eq : val_main_v24 (F := Ideal) x0 = G x0 := by
  funext idx
  obtain ⟨b, i, j, rfl⟩ : ∃ (b : Fin 32) (i j : Fin 1024), idx = ix3 b i j := ⟨idx 0, idx 1, idx 2, eq_ix3 idx⟩
  have e18 : idx_main_v18 (idx_main_v21 (ix3 b i j)) = ix2 i j := funext fun a => Fin.ext (by
    match a with | ⟨0, _⟩ => rfl | ⟨1, _⟩ => rfl)
  have e16 : ∀ k : Fin 1024, idx_main_v16 (idx_main_v20 (idx_main_v22 (ix3 b i j))) k = ix3 b i k := fun k =>
    funext fun a => Fin.ext (by match a with | ⟨0, _⟩ => rfl | ⟨1, _⟩ => rfl | ⟨2, _⟩ => rfl)
  rw [val_main_v24_apply, val_main_v17_apply, val_main_v23_apply, val_main_v21_apply, val_main_v19_apply,
    val_main_v18_apply, e18, eye_at, val_main_v22_apply, val_main_v20_apply, val_main_v16_apply, val_main_cst_5_apply,
    weights_at]
  simp only [e16, weights_at]
  exact lap_of_indicator (gram x0 b) i j

end Cert.ReferenceIdeal.IsLap

end
-- ==== Proof.lean ====
/-
  The claim: a fused single-pass graph-Laplacian kernel against its jnp reference, over the extended reals.

  Both programs take 32 batches of 1024 state vectors with 8 coordinates. Per batch they form the Gram matrix
  g i j = <s_i, s_j>, square it, threshold the square into edge weights (1 at or above 0.95, 1/2 at or above 1/2,
  else 0), clear the diagonal, and return L = D - A with D the diagonal matrix of row sums. The kernel transposes
  the states on the host, stages four batch elements per grid point, builds the NEGATED weights directly, sums a row,
  subtracts from zero and selects the degree onto the diagonal; the reference builds the weights, sums a row, negates,
  and adds the identity (as numbers) times the degrees. The Gram matrices agree term by term (one sum over the 8
  coordinates, whatever extended reals the states are), so the two comparison bits agree; the weights are then real
  numbers, so negation passes through the row sum and the products with 0 and 1 are exact: both results are the
  function G of LaplacianSpec, index by index. No finiteness of the inputs is used.

  KernelSlot reads one store's payload at an index; KernelArray carries it through the four stores of a block, the
  eight blocks of the grid and the host transpose to the whole array; ReferenceIsLap reads the reference's last value
  one operation at a time. The three frames are the generated frame runs; the idealization rewrote nothing.
-/
import proofs.«114448_g65481071400876_cont_9to1_m_40_11_alg».proof.Defs
import proofs.«114448_g65481071400876_cont_9to1_m_40_11_alg».proof.Proof.Gen.Kernel
import proofs.«114448_g65481071400876_cont_9to1_m_40_11_alg».proof.Proof.Gen.Kernel.Skeleton
import proofs.«114448_g65481071400876_cont_9to1_m_40_11_alg».proof.Proof.Gen.Kernel.Launch
import proofs.«114448_g65481071400876_cont_9to1_m_40_11_alg».proof.Proof.Gen.Kernel.Points
import proofs.«114448_g65481071400876_cont_9to1_m_40_11_alg».proof.Proof.Gen.Kernel.Frame
import proofs.«114448_g65481071400876_cont_9to1_m_40_11_alg».proof.Proof.Gen.KernelIdeal
import proofs.«114448_g65481071400876_cont_9to1_m_40_11_alg».proof.Proof.Gen.KernelIdeal.Skeleton
import proofs.«114448_g65481071400876_cont_9to1_m_40_11_alg».proof.Proof.Gen.KernelIdeal.Launch
import proofs.«114448_g65481071400876_cont_9to1_m_40_11_alg».proof.Proof.Gen.KernelIdeal.Points
import proofs.«114448_g65481071400876_cont_9to1_m_40_11_alg».proof.Proof.Gen.KernelIdeal.Frame
import proofs.«114448_g65481071400876_cont_9to1_m_40_11_alg».proof.Proof.Gen.ReferenceIdeal
import proofs.«114448_g65481071400876_cont_9to1_m_40_11_alg».proof.Proof.Gen.Pre_finite_inputs
import proofs.«114448_g65481071400876_cont_9to1_m_40_11_alg».proof.Proof.Gen.KernelIdeal.Value
import proofs.«114448_g65481071400876_cont_9to1_m_40_11_alg».proof.Proof.Gen.ReferenceIdeal.Run
import proofs.«114448_g65481071400876_cont_9to1_m_40_11_alg».proof.Proof.Gen.ReferenceIdeal.Read
import proofs.«114448_g65481071400876_cont_9to1_m_40_11_alg».proof.Proof.KernelArray
import proofs.«114448_g65481071400876_cont_9to1_m_40_11_alg».proof.Proof.ReferenceIsLap
import Idealize.ShloMosaic.Adequacy
import Idealize.ShloMosaic.Init

noncomputable section

namespace Cert.Proof

open Idealize.ShloMosaic Idealize.ShloMosaic.TcCoe Idealize.SL.Sem

/-- The kernel as printed runs and leaves its argument alone. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the Laplacian G of the states they were given, and were given the same states. -/
theorem algebraic : Cert.algebraic_KernelIdeal_ReferenceIdeal := by
  intro m ρ m' ρ' _ hagree
  refine ⟨fun c => Cert.Laplacian.G (m ((c : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.IsLap.result_eq, hagree c]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
